-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩

abbrev nBuf : Space → Nat
  | .hbm => 25
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S3072x1024, .f32⟩
  | .hbm, ⟨15, _⟩ => ⟨S3072x1024, .f32⟩
  | .hbm, ⟨16, _⟩ => ⟨S1024x3072, .f32⟩
  | .hbm, ⟨17, _⟩ => ⟨S1024x3072, .bf16⟩
  | .hbm, ⟨18, _⟩ => ⟨S1024x3072, .f32⟩
  | .hbm, ⟨19, _⟩ => ⟨S1024x3072, .bf16⟩
  | .hbm, ⟨20, _⟩ => ⟨S3072, .f32⟩
  | .hbm, ⟨21, _⟩ => ⟨S1x3072, .f32⟩
  | .hbm, ⟨22, _⟩ => ⟨S3072, .f32⟩
  | .hbm, ⟨23, _⟩ => ⟨S1x3072, .f32⟩
  | .hbm, ⟨24, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S32768x1024.size a
  hwx0_6 : ∀ i : grid0.Coords, EltTy.bits .f32 = 32 ∨ (Rect.block (s := S32768x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1024x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S1024x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.KernelFrame.lean ====
/-
  The frame of the fused GRU-cell program: its host prefix builds the two concatenated, transposed weight matrices
  and the two concatenated bias rows; its one region walks the 128 row blocks of the batch. At every grid point the
  body loads the two activation blocks, the two resident weight matrices and the two bias rows, and stores the new
  hidden block over the whole output buffer, so what the output buffer holds after the body is one function of the
  six input blocks; every weakly fair execution terminates with the fourteen arguments unchanged and the result
  array at the blocks the points wrote back.
-/
import proofs.«103748_j78039555768457_1_alg».proof.Proof.Gen.Kernel.Launch
import proofs.«103748_j78039555768457_1_alg».proof.Proof.Gen.Kernel.Skeleton
import proofs.«103748_j78039555768457_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch contents after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host prefix writes: the ten intermediate arrays. -/
abbrev written : List (Ref sig .tc) := [main_v0, main_v1, main_v2, main_v3, main_v4, main_v5, main_v6, main_v7, main_v8, main_v9]

theorem hostOps0_writes : (hostOps0 : List (HloOp τ sig (Elt F))).Forall fun op =>
    op.writes ⊆ (written.map (Proc.devRef (τ := τ) .tc)).toFinset := by
  simp only [hostOps0, List.Forall, StableHlo.nary_writes, StableHlo.unary_writes, StableHlo.reshape_writes,
    Finset.singleton_subset_iff, List.mem_toFinset]
  refine ⟨?_, ?_, ?_, ?_, ?_, ?_, ?_, ?_, ?_, ?_⟩ <;> exact List.mem_map_of_mem (by decide)

/-- A buffer the host prefix does not write is found by the region as launched. -/
theorem V_kept (c : Dev nD) (r : Ref sig .tc) (hr : r ∉ written) : V m c r = m ((c : Thread nD τ).loc r) :=
  StableHlo.after_of_writes_sub hostOps0 _ hostOps0_writes hr

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved, and the body left the block in place. One statement per input window. -/
theorem before_in_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rX : Rect S256x1024 := Rect.unit (s := S256x1024) ![0, 0] S256x1024.size inb_S256x1024_S256x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The output window's staging buffer after the body, from the six input blocks: its one store, through the whole
    buffer, of the new hidden block. -/
def out6 (x0 x1 : Vec F S256x1024 .f32) (x2 x3 : Vec F S1024x3072 .bf16) (x4 x5 : Vec F S1x3072 .f32) : Vec F S256x1024 .f32 :=
  View.canon [⟨rX, k0_pay1 (View.ld x0 rX) (View.ld x1 rX) (View.ld x2 rW) (View.ld x4 rB) (View.ld x3 rW) (View.ld x5 rB)⟩]

/-- The one store covers the buffer. -/
theorem cover6 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging memrefs, the six inputs' at contents `x0 … x5` and the output's at anything, runs
    to the continuation holding the inputs' as they were and the output's at `out6` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x3072 .bf16) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S256x1024 .f32) (harg7 : arg7.IsWhole)
    (x0 x1 : Vec F S256x1024 .f32) (x2 x3 : Vec F S1024x3072 .bf16) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the pipeline on core `c`: the arrays as the region finds them; after the body at point `t`
    each input's buffer at its block and the output's at `out6` of the input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in_of0 m (dats m 0 c) (A_eq m c 0) (after0 m c) t d
theorem before1 (c : Dev nD) (t : Fin cfg0.N) (d) : (dats m 0 c).before 1 t d = iblk m c 1 t :=
  before_in_of1 m (dats m 0 c) (A_eq m c 1) (after1 m c) t d
theorem before2 (c : Dev nD) (t : Fin cfg0.N) (d) : (dats m 0 c).before 2 t d = iblk m c 2 t :=
  before_in_of2 m (dats m 0 c) (A_eq m c 2) (after2 m c) t d
theorem before3 (c : Dev nD) (t : Fin cfg0.N) (d) : (dats m 0 c).before 3 t d = iblk m c 3 t :=
  before_in_of3 m (dats m 0 c) (A_eq m c 3) (after3 m c) t d
theorem before4 (c : Dev nD) (t : Fin cfg0.N) (d) : (dats m 0 c).before 4 t d = iblk m c 4 t :=
  before_in_of4 m (dats m 0 c) (A_eq m c 4) (after4 m c) t d
theorem before5 (c : Dev nD) (t : Fin cfg0.N) (d) : (dats m 0 c).before 5 t d = iblk m c 5 t :=
  before_in_of5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an argument a window stages (the two activations) is as launched: its window never writes back. -/
theorem kept_in (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c)))⟩

/-- After the run an argument no window stages (the weights and biases) is as launched. -/
theorem kept_rest (r : PUnit × MemSt nD τ sig (Elt F)) (h : Pipeline.FramePost cfgs (dats m) 0 (V m) r) (c : Dev nD)
    (b : Ref sig .tc) (hs : b.isScoped = false) (ha : ∀ w, (spec0 w).arr.view.ref ≠ b) (hr : b ∉ written) :
    r.2.mem ((c : Thread nD τ).loc b) = m ((c : Thread nD τ).loc b) :=
  ((h c).2 b (Pipeline.mem_restRefs_of b hs ha)).trans (V_kept m c b hr)

/-- The frame run with the result array named and every argument unchanged. -/
theorem run_named : θ_run defs (onTc (τ := τ) (main (F := F))) ⟨m, fun _ => 0, ρ⟩ (fun r => ∀ c : Dev nD,
      r.2.mem ((c.tc : Thread nD τ).loc main_v10) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1 6, (kept_in m r h c).1, (kept_in m r h c).2,
      kept_rest m r h c main_arg2 (by decide) (by decide) (by decide),
      kept_rest m r h c main_arg3 (by decide) (by decide) (by decide),
      kept_rest m r h c main_arg4 (by decide) (by decide) (by decide),
      kept_rest m r h c main_arg5 (by decide) (by decide) (by decide),
      kept_rest m r h c main_arg6 (by decide) (by decide) (by decide),
      kept_rest m r h c main_arg7 (by decide) (by decide) (by decide),
      kept_rest m r h c main_arg8 (by decide) (by decide) (by decide),
      kept_rest m r h c main_arg9 (by decide) (by decide) (by decide),
      kept_rest m r h c main_arg10 (by decide) (by decide) (by decide),
      kept_rest m r h c main_arg11 (by decide) (by decide) (by decide),
      kept_rest m r h c main_arg12 (by decide) (by decide) (by decide),
      kept_rest m r h c main_arg13 (by decide) (by decide) (by decide)⟩) (run_main m ρ)

/-- THE FRAME: every weakly fair execution terminates with the fourteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_named m ρ)

end Cert.Kernel.Gru

end
-- ==== Proof.KernelIdealFrame.lean ====
/-
  The frame of the fused GRU-cell program: its host prefix builds the two concatenated, transposed weight matrices
  and the two concatenated bias rows; its one region walks the 128 row blocks of the batch. At every grid point the
  body loads the two activation blocks, the two resident weight matrices and the two bias rows, and stores the new
  hidden block over the whole output buffer, so what the output buffer holds after the body is one function of the
  six input blocks; every weakly fair execution terminates with the fourteen arguments unchanged and the result
  array at the blocks the points wrote back.
-/
import proofs.«103748_j78039555768457_1_alg».proof.Proof.Gen.KernelIdeal.Launch
import proofs.«103748_j78039555768457_1_alg».proof.Proof.Gen.KernelIdeal.Skeleton
import proofs.«103748_j78039555768457_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch contents after the ten host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the host prefix writes: the ten intermediate arrays. -/
abbrev written : List (Ref sig .tc) := [main_v0, main_v1, main_v2, main_v3, main_v4, main_v5, main_v6, main_v7, main_v8, main_v9]

theorem hostOps0_writes : (hostOps0 : List (HloOp τ sig (Elt F))).Forall fun op =>
    op.writes ⊆ (written.map (Proc.devRef (τ := τ) .tc)).toFinset := by
  simp only [hostOps0, List.Forall, StableHlo.nary_writes, StableHlo.unary_writes, StableHlo.reshape_writes,
    Finset.singleton_subset_iff, List.mem_toFinset]
  refine ⟨?_, ?_, ?_, ?_, ?_, ?_, ?_, ?_, ?_, ?_⟩ <;> exact List.mem_map_of_mem (by decide)

/-- A buffer the host prefix does not write is found by the region as launched. -/
theorem V_kept (c : Dev nD) (r : Ref sig .tc) (hr : r ∉ written) : V m c r = m ((c : Thread nD τ).loc r) :=
  StableHlo.after_of_writes_sub hostOps0 _ hostOps0_writes hr

theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved, and the body left the block in place. One statement per input window. -/
theorem before_in_of0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rX : Rect S256x1024 := Rect.unit (s := S256x1024) ![0, 0] S256x1024.size inb_S256x1024_S256x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-- The output window's staging buffer after the body, from the six input blocks: its one store, through the whole
    buffer, of the new hidden block. -/
def out6 (x0 x1 : Vec F S256x1024 .f32) (x2 x3 : Vec F S1024x3072 .bf16) (x4 x5 : Vec F S1x3072 .f32) : Vec F S256x1024 .f32 :=
  View.canon [⟨rX, k0_pay1 (View.ld x0 rX) (View.ld x1 rX) (View.ld x2 rW) (View.ld x4 rB) (View.ld x3 rW) (View.ld x5 rB)⟩]

/-- The one store covers the buffer. -/
theorem cover6 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

/-! ## The body's triple -/

set_option maxHeartbeats 1000000 in
/-- The kernel body on whole staging memrefs, the six inputs' at contents `x0 … x5` and the output's at anything, runs
    to the continuation holding the inputs' as they were and the output's at `out6` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x3072 .bf16) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S256x1024 .f32) (harg7 : arg7.IsWhole)
    (x0 x1 : Vec F S256x1024 .f32) (x2 x3 : Vec F S1024x3072 .bf16) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of the pipeline on core `c`: the arrays as the region finds them; after the body at point `t`
    each input's buffer at its block and the output's at `out6` of the input blocks; the invariant is the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in_of0 m (dats m 0 c) (A_eq m c 0) (after0 m c) t d
theorem before1 (c : Dev nD) (t : Fin cfg0.N) (d) : (dats m 0 c).before 1 t d = iblk m c 1 t :=
  before_in_of1 m (dats m 0 c) (A_eq m c 1) (after1 m c) t d
theorem before2 (c : Dev nD) (t : Fin cfg0.N) (d) : (dats m 0 c).before 2 t d = iblk m c 2 t :=
  before_in_of2 m (dats m 0 c) (A_eq m c 2) (after2 m c) t d
theorem before3 (c : Dev nD) (t : Fin cfg0.N) (d) : (dats m 0 c).before 3 t d = iblk m c 3 t :=
  before_in_of3 m (dats m 0 c) (A_eq m c 3) (after3 m c) t d
theorem before4 (c : Dev nD) (t : Fin cfg0.N) (d) : (dats m 0 c).before 4 t d = iblk m c 4 t :=
  before_in_of4 m (dats m 0 c) (A_eq m c 4) (after4 m c) t d
theorem before5 (c : Dev nD) (t : Fin cfg0.N) (d) : (dats m 0 c).before 5 t d = iblk m c 5 t :=
  before_in_of5 m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run an argument a window stages (the two activations) is as launched: its window never writes back. -/
theorem kept_in (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c)))⟩

/-- After the run an argument no window stages (the weights and biases) is as launched. -/
theorem kept_rest (r : PUnit × MemSt nD τ sig (Elt F)) (h : Pipeline.FramePost cfgs (dats m) 0 (V m) r) (c : Dev nD)
    (b : Ref sig .tc) (hs : b.isScoped = false) (ha : ∀ w, (spec0 w).arr.view.ref ≠ b) (hr : b ∉ written) :
    r.2.mem ((c : Thread nD τ).loc b) = m ((c : Thread nD τ).loc b) :=
  ((h c).2 b (Pipeline.mem_restRefs_of b hs ha)).trans (V_kept m c b hr)

/-- The frame run with the result array named and every argument unchanged. -/
theorem run_named : θ_run defs (onTc (τ := τ) (main (F := F))) ⟨m, fun _ => 0, ρ⟩ (fun r => ∀ c : Dev nD,
      r.2.mem ((c.tc : Thread nD τ).loc main_v10) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1 6, (kept_in m r h c).1, (kept_in m r h c).2,
      kept_rest m r h c main_arg2 (by decide) (by decide) (by decide),
      kept_rest m r h c main_arg3 (by decide) (by decide) (by decide),
      kept_rest m r h c main_arg4 (by decide) (by decide) (by decide),
      kept_rest m r h c main_arg5 (by decide) (by decide) (by decide),
      kept_rest m r h c main_arg6 (by decide) (by decide) (by decide),
      kept_rest m r h c main_arg7 (by decide) (by decide) (by decide),
      kept_rest m r h c main_arg8 (by decide) (by decide) (by decide),
      kept_rest m r h c main_arg9 (by decide) (by decide) (by decide),
      kept_rest m r h c main_arg10 (by decide) (by decide) (by decide),
      kept_rest m r h c main_arg11 (by decide) (by decide) (by decide),
      kept_rest m r h c main_arg12 (by decide) (by decide) (by decide),
      kept_rest m r h c main_arg13 (by decide) (by decide) (by decide)⟩) (run_main m ρ)

/-- THE FRAME: every weakly fair execution terminates with the fourteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => (h c).2) (run_named m ρ)

end Cert.KernelIdeal.Gru

end
-- ==== Proof.KernelIdealHost.lean ====
/-
  What the host prefix leaves in the four arrays the region stages besides the activations, read at an index.

  The two weight arrays are the three `1024 × 1024` matrices of a side stacked along the rows, transposed, and
  narrowed (the identity on the extended reals): at `(k, q + 1024·n)` they hold matrix `n` of the side at `(q, k)`.
  The two bias rows are the three bias vectors of a side laid end to end and given a unit leading axis: at
  `(0, q + 1024·n)` they hold vector `n` at `q`.
-/
import proofs.«103748_j78039555768457_1_alg».proof.Proof.KernelIdealFrame
import Idealize.ShloMosaic.Lib.Pipeline.Value
import Idealize.ShloMosaic.Lib.ValueIdx
import Idealize.ShloMosaic.Lib.StableHlo.Run

noncomputable section

namespace Cert.KernelIdeal.GruHost

open Cert.KernelIdeal Cert.KernelIdeal.Gen Cert.KernelIdeal.Gru
open Idealize.ShloMosaic Idealize.ShloMosaic.TcCoe Idealize.SL.Sem Idealize.ShloMosaic.StableHlo Idealize.ShloMosaic.ValueIdx

variable (m : (ℓ : Loc nD τ sig) → Buf (Elt Ideal) ℓ)

/-- A three-operand host operation's result, each operand's contents read at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Each operation's result at its own buffer is its function of its operands' contents, and at any other buffer what
    was there: rewritten outermost first until the launch contents are reached. -/
macro "host_results" : tactic =>
  `(tactic| (simp only [after_cons, after_nil]
             repeat (first
               | rw [nary3_result] | rw [unary_result] | rw [reshape_result]
               | (rw [unary_result_ne]; rotate_left; decide)
               | (rw [reshape_result_ne]; rotate_left; decide)
               | (rw [nary_result_ne]; rotate_left; decide))))

/-! ## The four staged arrays as terms of the arguments -/

theorem V_v3 (c : Dev nD) : @Eq (FVec Ideal S1024x3072 .bf16) (V m c main_v3)
    (truncf .bf16 (transpose S1024x3072 [1, 0] (concatenate S3072x1024 0 [⟨S1024x1024, m ((c : Thread nD τ).loc main_arg2)⟩, ⟨S1024x1024, m ((c : Thread nD τ).loc main_arg6)⟩, ⟨S1024x1024, m ((c : Thread nD τ).loc main_arg10)⟩] concatenates_S1024x1024_S1024x1024_S1024x1024_S3072x1024_d0) transposes_S3072x1024_S1024x3072_1_0) bitsLt_bf16_f32) := by
  dsimp only [V, hostOps0]
  host_results
  rfl

theorem V_v5 (c : Dev nD) : @Eq (FVec Ideal S1024x3072 .bf16) (V m c main_v5)
    (truncf .bf16 (transpose S1024x3072 [1, 0] (concatenate S3072x1024 0 [⟨S1024x1024, m ((c : Thread nD τ).loc main_arg4)⟩, ⟨S1024x1024, m ((c : Thread nD τ).loc main_arg8)⟩, ⟨S1024x1024, m ((c : Thread nD τ).loc main_arg12)⟩] concatenates_S1024x1024_S1024x1024_S1024x1024_S3072x1024_d0) transposes_S3072x1024_S1024x3072_1_0) bitsLt_bf16_f32) := by
  dsimp only [V, hostOps0]
  host_results
  rfl

theorem V_v7 (c : Dev nD) : @Eq (FVec Ideal S1x3072 .f32) (V m c main_v7)
    (shapeCast S1x3072 (concatenate S3072 0 [⟨S1024, m ((c : Thread nD τ).loc main_arg3)⟩, ⟨S1024, m ((c : Thread nD τ).loc main_arg7)⟩, ⟨S1024, m ((c : Thread nD τ).loc main_arg11)⟩] concatenates_S1024_S1024_S1024_S3072_d0) shapeCasts_S3072_S1x3072) := by
  dsimp only [V, hostOps0]
  host_results
  rfl

theorem V_v9 (c : Dev nD) : @Eq (FVec Ideal S1x3072 .f32) (V m c main_v9)
    (shapeCast S1x3072 (concatenate S3072 0 [⟨S1024, m ((c : Thread nD τ).loc main_arg5)⟩, ⟨S1024, m ((c : Thread nD τ).loc main_arg9)⟩, ⟨S1024, m ((c : Thread nD τ).loc main_arg13)⟩] concatenates_S1024_S1024_S1024_S3072_d0) shapeCasts_S3072_S1x3072) := by
  dsimp only [V, hostOps0]
  host_results
  rfl

/-! ## The stacked, transposed weights and the joined biases at an index -/

/-- The narrowed transpose of a stacked array at `(k, col)` is the stacked array at `(col, k)`. -/
theorem narrowT_at (X : FVec Ideal S3072x1024 .f32) (k : Fin 1024) (col : Fin 3072) :
    (truncf .bf16 (transpose S1024x3072 [1, 0] X transposes_S3072x1024_S1024x3072_1_0) bitsLt_bf16_f32 : FVec Ideal S1024x3072 .bf16) (ix2 k col) = X (ix2 col k) :=
  (truncf_apply (ψ := .bf16) (transpose S1024x3072 [1, 0] X transposes_S3072x1024_S1024x3072_1_0) bitsLt_bf16_f32 (ix2 k col)).trans
    (transpose_apply [1, 0] X transposes_S3072x1024_S1024x3072_1_0 (ix2 k col) (ix2 col k) (fun b => by
      match b with
      | ⟨0, _⟩ => rfl
      | ⟨1, _⟩ => rfl))

/-- Column `q + 0` of the stacked, transposed weights is row `q` of matrix 0. -/
theorem W_at0 (A B C : FVec Ideal S1024x1024 .f32) (k q : Fin 1024) :
    (truncf .bf16 (transpose S1024x3072 [1, 0] (concatenate S3072x1024 0 [⟨S1024x1024, A⟩, ⟨S1024x1024, B⟩, ⟨S1024x1024, C⟩] concatenates_S1024x1024_S1024x1024_S1024x1024_S3072x1024_d0) transposes_S3072x1024_S1024x3072_1_0) bitsLt_bf16_f32) (ix2 k (⟨q.val + 0, by omega⟩ : Fin 3072)) = A (ix2 q k) := by
  refine (narrowT_at _ k _).trans ?_
  exact concatenate_apply_piece (0 : Fin S3072x1024.rank) [⟨S1024x1024, A⟩, ⟨S1024x1024, B⟩, ⟨S1024x1024, C⟩] concatenates_S1024x1024_S1024x1024_S1024x1024_S3072x1024_d0 _ 0 (by show (0 : ℕ) < 3; omega) S1024x1024 A rfl rfl 0 rfl (ix2 q k)
    (fun b hb => by
      match b with
      | ⟨0, _⟩ => exact absurd rfl hb
      | ⟨1, _⟩ => rfl) (Nat.add_comm _ _)

/-- Entry `q + 0` of the joined bias row is entry `q` of vector 0. -/
theorem b_at0 (A B C : FVec Ideal S1024 .f32) (q : Fin 1024) :
    (shapeCast S1x3072 (concatenate S3072 0 [⟨S1024, A⟩, ⟨S1024, B⟩, ⟨S1024, C⟩] concatenates_S1024_S1024_S1024_S3072_d0) shapeCasts_S3072_S1x3072) (ix2 (0 : Fin 1) (⟨q.val + 0, by omega⟩ : Fin 3072)) = A (ix1 q) := by
  rw [shapeCast_addUnit_apply (n := 1) ![3072] _ shapeCasts_S3072_S1x3072 (ix2 (0 : Fin 1) (⟨q.val + 0, by omega⟩ : Fin 3072))]
  exact concatenate_apply_piece (0 : Fin S3072.rank) [⟨S1024, A⟩, ⟨S1024, B⟩, ⟨S1024, C⟩] concatenates_S1024_S1024_S1024_S3072_d0 _ 0 (by show (0 : ℕ) < 3; omega) S1024 A rfl rfl 0 rfl (ix1 q)
    (fun b hb => by
      match b with
      | ⟨0, _⟩ => exact absurd rfl hb) (Nat.add_comm _ _)

/-- Column `q + 1024` of the stacked, transposed weights is row `q` of matrix 1. -/
theorem W_at1 (A B C : FVec Ideal S1024x1024 .f32) (k q : Fin 1024) :
    (truncf .bf16 (transpose S1024x3072 [1, 0] (concatenate S3072x1024 0 [⟨S1024x1024, A⟩, ⟨S1024x1024, B⟩, ⟨S1024x1024, C⟩] concatenates_S1024x1024_S1024x1024_S1024x1024_S3072x1024_d0) transposes_S3072x1024_S1024x3072_1_0) bitsLt_bf16_f32) (ix2 k (⟨q.val + 1024, by omega⟩ : Fin 3072)) = B (ix2 q k) := by
  refine (narrowT_at _ k _).trans ?_
  exact concatenate_apply_piece (0 : Fin S3072x1024.rank) [⟨S1024x1024, A⟩, ⟨S1024x1024, B⟩, ⟨S1024x1024, C⟩] concatenates_S1024x1024_S1024x1024_S1024x1024_S3072x1024_d0 _ 1 (by show (1 : ℕ) < 3; omega) S1024x1024 B rfl rfl 1024 rfl (ix2 q k)
    (fun b hb => by
      match b with
      | ⟨0, _⟩ => exact absurd rfl hb
      | ⟨1, _⟩ => rfl) (Nat.add_comm _ _)

/-- Entry `q + 1024` of the joined bias row is entry `q` of vector 1. -/
theorem b_at1 (A B C : FVec Ideal S1024 .f32) (q : Fin 1024) :
    (shapeCast S1x3072 (concatenate S3072 0 [⟨S1024, A⟩, ⟨S1024, B⟩, ⟨S1024, C⟩] concatenates_S1024_S1024_S1024_S3072_d0) shapeCasts_S3072_S1x3072) (ix2 (0 : Fin 1) (⟨q.val + 1024, by omega⟩ : Fin 3072)) = B (ix1 q) := by
  rw [shapeCast_addUnit_apply (n := 1) ![3072] _ shapeCasts_S3072_S1x3072 (ix2 (0 : Fin 1) (⟨q.val + 1024, by omega⟩ : Fin 3072))]
  exact concatenate_apply_piece (0 : Fin S3072.rank) [⟨S1024, A⟩, ⟨S1024, B⟩, ⟨S1024, C⟩] concatenates_S1024_S1024_S1024_S3072_d0 _ 1 (by show (1 : ℕ) < 3; omega) S1024 B rfl rfl 1024 rfl (ix1 q)
    (fun b hb => by
      match b with
      | ⟨0, _⟩ => exact absurd rfl hb) (Nat.add_comm _ _)

/-- Column `q + 2048` of the stacked, transposed weights is row `q` of matrix 2. -/
theorem W_at2 (A B C : FVec Ideal S1024x1024 .f32) (k q : Fin 1024) :
    (truncf .bf16 (transpose S1024x3072 [1, 0] (concatenate S3072x1024 0 [⟨S1024x1024, A⟩, ⟨S1024x1024, B⟩, ⟨S1024x1024, C⟩] concatenates_S1024x1024_S1024x1024_S1024x1024_S3072x1024_d0) transposes_S3072x1024_S1024x3072_1_0) bitsLt_bf16_f32) (ix2 k (⟨q.val + 2048, by omega⟩ : Fin 3072)) = C (ix2 q k) := by
  refine (narrowT_at _ k _).trans ?_
  exact concatenate_apply_piece (0 : Fin S3072x1024.rank) [⟨S1024x1024, A⟩, ⟨S1024x1024, B⟩, ⟨S1024x1024, C⟩] concatenates_S1024x1024_S1024x1024_S1024x1024_S3072x1024_d0 _ 2 (by show (2 : ℕ) < 3; omega) S1024x1024 C rfl rfl 2048 rfl (ix2 q k)
    (fun b hb => by
      match b with
      | ⟨0, _⟩ => exact absurd rfl hb
      | ⟨1, _⟩ => rfl) (Nat.add_comm _ _)

/-- Entry `q + 2048` of the joined bias row is entry `q` of vector 2. -/
theorem b_at2 (A B C : FVec Ideal S1024 .f32) (q : Fin 1024) :
    (shapeCast S1x3072 (concatenate S3072 0 [⟨S1024, A⟩, ⟨S1024, B⟩, ⟨S1024, C⟩] concatenates_S1024_S1024_S1024_S3072_d0) shapeCasts_S3072_S1x3072) (ix2 (0 : Fin 1) (⟨q.val + 2048, by omega⟩ : Fin 3072)) = C (ix1 q) := by
  rw [shapeCast_addUnit_apply (n := 1) ![3072] _ shapeCasts_S3072_S1x3072 (ix2 (0 : Fin 1) (⟨q.val + 2048, by omega⟩ : Fin 3072))]
  exact concatenate_apply_piece (0 : Fin S3072.rank) [⟨S1024, A⟩, ⟨S1024, B⟩, ⟨S1024, C⟩] concatenates_S1024_S1024_S1024_S3072_d0 _ 2 (by show (2 : ℕ) < 3; omega) S1024 C rfl rfl 2048 rfl (ix1 q)
    (fun b hb => by
      match b with
      | ⟨0, _⟩ => exact absurd rfl hb) (Nat.add_comm _ _)

end Cert.KernelIdeal.GruHost

end
-- ==== Proof.Spec.lean ====
/-
  The GRU cell as one function of its fourteen arguments, cell by cell, on the extended reals.

  For a batch row `p` and a feature `q`, each of the six affine layers is the row of the activations against row `q` of
  the layer's weight matrix plus the bias entry: `lin X W b p q = Σₖ X[p,k]·W[q,k] + b[q]`. The reset and update
  gates are the logistic function `1 / (1 + e^(-u))` of the sums of the input-side and hidden-side layers, the
  candidate is `tanh` of the input-side layer plus the reset gate times the hidden-side layer, and the new hidden
  state is `(1 - z)·n + z·h`.
-/
import Idealize.ShloMosaic.PureOps.Ideal
import Idealize.ShloMosaic.Lib.ValueIdx

noncomputable section

namespace Cert.GruSpec

open Idealize.ShloMosaic Idealize.ShloMosaic.ValueIdx

/-- The batch of activations, a weight matrix, a bias vector. -/
abbrev SBD : Shape := ⟨2, ![32768, 1024]⟩
abbrev SDD : Shape := ⟨2, ![1024, 1024]⟩
abbrev SD : Shape := ⟨1, ![1024]⟩

/-- One affine layer at a cell: row `p` of the activations against row `q` of the weights, plus bias entry `q`. -/
def lin (X : SBD.Idx → EReal) (W : SDD.Idx → EReal) (b : SD.Idx → EReal) (p : Fin 32768) (q : Fin 1024) : EReal :=
  (∑ k : Fin 1024, X (ix2 p k) * W (ix2 q k)) + b (ix1 q)

/-- The float pattern of the number one, as both programs spell it. -/
abbrev one : EReal := Ideal.ofBits .f32 0x3F800000#32

/-- The logistic function as the quotient `1 / (1 + e^(-u))`. -/
def sigm (u : EReal) : EReal := Ideal.div one (one + Ideal.exp (-u))

/-- The new hidden state at a cell from the six layers' values there and the old hidden state. -/
def blend (ir hr iz hz inn hn hid : EReal) : EReal :=
  (one - sigm (iz + hz)) * Ideal.tanh (inn + sigm (ir + hr) * hn) + sigm (iz + hz) * hid

/-- The GRU cell's new hidden state, as one function of the arguments, index by index. -/
def G (x h : SBD.Idx → EReal) (Wir : SDD.Idx → EReal) (bir : SD.Idx → EReal) (Whr : SDD.Idx → EReal) (bhr : SD.Idx → EReal)
    (Wiz : SDD.Idx → EReal) (biz : SD.Idx → EReal) (Whz : SDD.Idx → EReal) (bhz : SD.Idx → EReal)
    (Win : SDD.Idx → EReal) (bin : SD.Idx → EReal) (Whn : SDD.Idx → EReal) (bhn : SD.Idx → EReal) : SBD.Idx → EReal :=
  fun i => blend (lin x Wir bir (i 0) (i 1)) (lin h Whr bhr (i 0) (i 1)) (lin x Wiz biz (i 0) (i 1)) (lin h Whz bhz (i 0) (i 1))
    (lin x Win bin (i 0) (i 1)) (lin h Whn bhn (i 0) (i 1)) (h i)

end Cert.GruSpec

end
-- ==== Proof.KernelIdealPayload.lean ====
/-
  The body's arithmetic at one cell of the output block.

  The two matrix products into a zero accumulator are, at the extended reals, the plain sums over the contracted
  axis; the bias row is broadcast along the rows; a column slice at offset `0`, `1024`, `2048` reads the fused
  `256 × 3072` gate array at column `q`, `q + 1024`, `q + 2048`. So the stored value at `(p, q)` is the specification's
  blend of six "gate" entries — row `p` of an activation block against a column of a resident weight matrix plus that
  column's bias — and the old hidden entry.
-/
import proofs.«103748_j78039555768457_1_alg».proof.Proof.Gen.KernelIdeal.Skeleton
import proofs.«103748_j78039555768457_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.GruPayload

open Cert.KernelIdeal Cert.KernelIdeal.Gen Cert.GruSpec
open Idealize.ShloMosaic Idealize.ShloMosaic.ValueIdx

/-! ## The matrix product at an index -/

theorem lhs_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- A `256 × 1024` by `1024 × 3072` product into a zero accumulator, at `(p, col)`: the sum over `k` of the products. -/
theorem mm_at (x : FVec Ideal S256x1024 .bf16) (w : FVec Ideal S1024x3072 .bf16) (p : Fin 256) (col : Fin 3072) :
    matmul dot_S256x1024_S1024x3072_S256x3072_1_0_0_1_n_n none x w (constant S256x3072 .f32 0x00000000#32) (ix2 p col)
      = ∑ k : Fin 1024, x (ix2 p k) * w (ix2 k col) := by
  show FloatOps.matmul dot_S256x1024_S1024x3072_S256x3072_1_0_0_1_n_n none x w (constant S256x3072 .f32 0x00000000#32) (ix2 p col) = _
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p col) ((ValueIdx.contrEquiv1 dot_S256x1024_S1024x3072_S256x3072_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x3072_S256x3072_1_0_0_1_n_n.rhsIdx (ix2 p col) ((ValueIdx.contrEquiv1 dot_S256x1024_S1024x3072_S256x3072_1_0_0_1_n_n 1024 rfl rfl).symm k) = ix2 k col := funext fun a => Fin.ext (by
    match a with
    | ⟨0, _⟩ => exact (rhs_0 _ _).trans hk
    | ⟨1, _⟩ => exact rhs_1 _ _)
  rw [el, er]

/-! ## The fused gate array -/

/-- Row `p` of an activation block against column `col` of a resident weight matrix, plus that column's bias. -/
def gate (x : FVec Ideal S256x1024 .f32) (w : FVec Ideal S1024x3072 .bf16) (b : FVec Ideal S1x3072 .f32) (p : Fin 256) (col : Fin 3072) : EReal :=
  (∑ k : Fin 1024, x (ix2 p k) * w (ix2 k col)) + b (ix2 (0 : Fin 1) col)

/-- The `256 × 3072` gate array of one side (input or hidden): the product plus the broadcast bias row. -/
def gates (x : FVec Ideal S256x1024 .f32) (w : FVec Ideal S1024x3072 .bf16) (b : FVec Ideal S1x3072 .f32) : FVec Ideal S256x3072 .f32 :=
  addf (matmul dot_S256x1024_S1024x3072_S256x3072_1_0_0_1_n_n none (truncf .bf16 x bitsLt_bf16_f32) (shapeCast S1024x3072 w shapeCasts_S1024x3072_S1024x3072) (constant S256x3072 .f32 0x00000000#32))
    (broadcastTo S256x3072 (shapeCast S1x3072 b shapeCasts_S1x3072_S1x3072) broadcasts_S1x3072_S256x3072)

theorem gates_at (x : FVec Ideal S256x1024 .f32) (w : FVec Ideal S1024x3072 .bf16) (b : FVec Ideal S1x3072 .f32) (p : Fin 256) (col : Fin 3072) :
    gates x w b (ix2 p col) = gate x w b p col := by
  unfold gates gate
  rw [shapeCast_self, shapeCast_self]
  show matmul dot_S256x1024_S1024x3072_S256x3072_1_0_0_1_n_n none (truncf .bf16 x bitsLt_bf16_f32) w (constant S256x3072 .f32 0x00000000#32) (ix2 p col)
      + broadcastTo S256x3072 b broadcasts_S1x3072_S256x3072 (ix2 p col) = _
  rw [mm_at, broadcastTo_apply b broadcasts_S1x3072_S256x3072 (ix2 p col) (ix2 (0 : Fin 1) col) (fun a => by
    match a with
    | ⟨0, _⟩ => rfl
    | ⟨1, _⟩ => rfl)]
  rfl

/-- A column slice of a gate array at offset `off`, read at `(p, q)`: the array at `(p, q + off)`. -/
theorem slice_at (g : FVec Ideal S256x3072 .f32) (off : Nat) (hs : S256x3072.Slices ![0, off] S256x1024) (p : Fin 256) (q : Fin 1024)
    (hq : q.val + off < 3072) :
    extractStridedSlice S256x1024 ![0, off] g hs (ix2 p q) = g (ix2 p ⟨q.val + off, hq⟩) :=
  extractStridedSlice_apply ![0, off] g hs (ix2 p q) (ix2 p ⟨q.val + off, hq⟩) (fun a => by
    match a with
    | ⟨0, _⟩ => exact (Nat.zero_add _).symm
    | ⟨1, _⟩ => exact Nat.add_comm _ _)

/-! ## The stored value -/

/-- The body's blend of the two gate arrays and the old hidden block. -/
def comb (gi gh : FVec Ideal S256x3072 .f32) (h : FVec Ideal S256x1024 .f32) : FVec Ideal S256x1024 .f32 :=
  addf (mulf (subf (broadcast S256x1024 (Scalar.ofBits (F := Ideal) .f32 0x3F800000#32))
        (logistic (addf (extractStridedSlice S256x1024 ![0, 1024] gi slices_S256x3072_o0_1024_S256x1024) (extractStridedSlice S256x1024 ![0, 1024] gh slices_S256x3072_o0_1024_S256x1024))))
      (tanh (addf (extractStridedSlice S256x1024 ![0, 2048] gi slices_S256x3072_o0_2048_S256x1024)
        (mulf (logistic (addf (extractStridedSlice S256x1024 ![0, 0] gi slices_S256x3072_o0_0_S256x1024) (extractStridedSlice S256x1024 ![0, 0] gh slices_S256x3072_o0_0_S256x1024)))
          (extractStridedSlice S256x1024 ![0, 2048] gh slices_S256x3072_o0_2048_S256x1024)))))
    (mulf (logistic (addf (extractStridedSlice S256x1024 ![0, 1024] gi slices_S256x3072_o0_1024_S256x1024) (extractStridedSlice S256x1024 ![0, 1024] gh slices_S256x3072_o0_1024_S256x1024))) h)

/-- The stored payload is that blend of the two sides' gate arrays. -/
theorem pay_eq_comb (x0 x1 : Vec Ideal S256x1024 .f32) (wi : Vec Ideal S1024x3072 .bf16) (bi : Vec Ideal S1x3072 .f32)
    (wh : Vec Ideal S1024x3072 .bf16) (bh : Vec Ideal S1x3072 .f32) :
    k0_pay1 (F := Ideal) x0 x1 wi bi wh bh = comb (gates x0 wi bi) (gates x1 wh bh) x1 := rfl

/-- The logistic function is the specification's quotient. -/
theorem logistic_eq_sigm (u : EReal) : Ideal.logistic u = sigm u := by
  unfold sigm Ideal.logistic one
  rw [Ideal.ofBits_one_f32]

/-- The blend at a cell, from the gate arrays' entries at the three column offsets. -/
theorem comb_at (gi gh : FVec Ideal S256x3072 .f32) (h : FVec Ideal S256x1024 .f32) (p : Fin 256) (q : Fin 1024) :
    comb gi gh h (ix2 p q)
      = blend (gi (ix2 p ⟨q.val + 0, by omega⟩)) (gh (ix2 p ⟨q.val + 0, by omega⟩))
          (gi (ix2 p ⟨q.val + 1024, by omega⟩)) (gh (ix2 p ⟨q.val + 1024, by omega⟩))
          (gi (ix2 p ⟨q.val + 2048, by omega⟩)) (gh (ix2 p ⟨q.val + 2048, by omega⟩)) (h (ix2 p q)) := by
  have s0i := slice_at gi 0 slices_S256x3072_o0_0_S256x1024 p q (by omega)
  have s0h := slice_at gh 0 slices_S256x3072_o0_0_S256x1024 p q (by omega)
  have s1i := slice_at gi 1024 slices_S256x3072_o0_1024_S256x1024 p q (by omega)
  have s1h := slice_at gh 1024 slices_S256x3072_o0_1024_S256x1024 p q (by omega)
  have s2i := slice_at gi 2048 slices_S256x3072_o0_2048_S256x1024 p q (by omega)
  have s2h := slice_at gh 2048 slices_S256x3072_o0_2048_S256x1024 p q (by omega)
  unfold comb blend
  simp only [addf, mulf, subf, logistic, tanh, broadcast, s0i, s0h, s1i, s1h, s2i, s2h, Ideal.logistic_def, Ideal.tanh_def,
    Ideal.addf_def, Ideal.mulf_def, Ideal.subf_def, logistic_eq_sigm]
  rfl

/-- The stored value at a cell of the block: the specification's blend of the six gate entries and the old hidden entry. -/
theorem pay_at (x0 x1 : Vec Ideal S256x1024 .f32) (wi : Vec Ideal S1024x3072 .bf16) (bi : Vec Ideal S1x3072 .f32)
    (wh : Vec Ideal S1024x3072 .bf16) (bh : Vec Ideal S1x3072 .f32) (p : Fin 256) (q : Fin 1024) :
    k0_pay1 (F := Ideal) x0 x1 wi bi wh bh (ix2 p q)
      = blend (gate x0 wi bi p ⟨q.val + 0, by omega⟩) (gate x1 wh bh p ⟨q.val + 0, by omega⟩)
          (gate x0 wi bi p ⟨q.val + 1024, by omega⟩) (gate x1 wh bh p ⟨q.val + 1024, by omega⟩)
          (gate x0 wi bi p ⟨q.val + 2048, by omega⟩) (gate x1 wh bh p ⟨q.val + 2048, by omega⟩) (x1 (ix2 p q)) := by
  rw [pay_eq_comb, comb_at]
  simp only [gates_at]

end Cert.KernelIdeal.GruPayload

end
-- ==== Proof.KernelIdealValue.lean ====
/-
  The result array after the run is the GRU cell of the specification.

  Grid point `t` stages rows `256·t … 256·t + 255` of the two activation arrays and, at every point, the whole of the
  two weight arrays and the two bias rows. So at the cell `(p, q)` of its block the body's six gate entries are the
  six affine layers of the specification at row `256·t + p` and feature `q`, the old hidden entry is the hidden state
  there, and what the point writes back is block `t` of the specification's function. The 128 blocks tile the array.
-/
import proofs.«103748_j78039555768457_1_alg».proof.Proof.KernelIdealFrame
import proofs.«103748_j78039555768457_1_alg».proof.Proof.KernelIdealHost
import proofs.«103748_j78039555768457_1_alg».proof.Proof.KernelIdealPayload
import proofs.«103748_j78039555768457_1_alg».proof.Proof.Spec
import Idealize.ShloMosaic.Lib.Pipeline.Value
import Idealize.ShloMosaic.Lib.ValueIdx

set_option maxRecDepth 16384

noncomputable section

namespace Cert.KernelIdeal.GruValue

open Cert.KernelIdeal Cert.KernelIdeal.Gen Cert.KernelIdeal.Gru Cert.KernelIdeal.GruHost Cert.KernelIdeal.GruPayload Cert.GruSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's function of the fourteen arguments as launched on core `c`. -/
def Gm (c : Dev nD) : S32768x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13))

/-! ## The schedule -/

theorem hz : (![0, 0] : Fin 2 → Nat) = fun _ => 0 := funext fun a => by fin_cases a <;> rfl

/-- The printed index maps, decided over the grid: the activations' and the result's blocks move down the rows with
    the point, the four resident windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 128 := by
  have hN : cfg0.N = 128 := N_0
  have := t.isLt
  omega

theorem row_lt (t : Fin cfg0.N) (p : Fin 256) : t.val * 256 + p.val < 32768 := by
  have := t_lt t
  have := p.isLt
  omega

/-! ## The staged blocks at an index -/

/-- Row `p` of the input block at point `t` is row `256·t + p` of the input array. -/
theorem act0_at (c : Dev nD) (t : Fin cfg0.N) (p : Fin 256) (k : Fin 1024) :
    @Eq EReal (iblk m c 0 t (ix2 p k)) (m ((c : Thread nD τ).loc main_arg0) (ix2 (⟨t.val * 256 + p.val, row_lt t p⟩ : Fin 32768) k)) := by
  obtain ⟨e00, e01, e10, e11, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; rw [e00]; omega
  | ⟨1, _⟩ => show win0_0.index t (1 : Fin 2) * 1024 + 1 * k.val = k.val; rw [e01]; omega

/-- Row `p` of the hidden block at point `t` is row `256·t + p` of the hidden-state array. -/
theorem act1_at (c : Dev nD) (t : Fin cfg0.N) (p : Fin 256) (k : Fin 1024) :
    @Eq EReal (iblk m c 1 t (ix2 p k)) (m ((c : Thread nD τ).loc main_arg1) (ix2 (⟨t.val * 256 + p.val, row_lt t p⟩ : Fin 32768) k)) := by
  obtain ⟨e00, e01, e10, e11, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; rw [e10]; omega
  | ⟨1, _⟩ => show win0_1.index t (1 : Fin 2) * 1024 + 1 * k.val = k.val; rw [e11]; omega

/-- A resident weight window holds its whole array at every point. -/
theorem emb2 (t : Fin cfg0.N) (y : S1024x3072.Idx) : ((cfg0.win 2).blk t).view.emb y = y := by
  obtain ⟨-, -, -, -, e20, e21, e30, e31, -⟩ := idx_facts t
  refine funext fun a => Fin.ext ?_
  match a with
  | ⟨0, _⟩ => show win0_2.index t (0 : Fin 2) * 1024 + 1 * (y 0).val = (y 0).val; rw [e20]; omega
  | ⟨1, _⟩ => show win0_2.index t (1 : Fin 2) * 3072 + 1 * (y 1).val = (y 1).val; rw [e21]; omega
theorem wi_at0 (c : Dev nD) (t : Fin cfg0.N) (k q : Fin 1024) :
    @Eq EReal (iblk m c 2 t (ix2 k (⟨q.val + 0, by omega⟩ : Fin 3072))) (m ((c : Thread nD τ).loc main_arg2) (ix2 q k)) := by
  show V m c main_v3 (((cfg0.win 2).blk t).view.emb (ix2 k (⟨q.val + 0, by omega⟩ : Fin 3072))) = _
  rw [emb2]
  exact (congrFun (V_v3 m c) _).trans (W_at0 _ _ _ k q)
theorem wi_at1 (c : Dev nD) (t : Fin cfg0.N) (k q : Fin 1024) :
    @Eq EReal (iblk m c 2 t (ix2 k (⟨q.val + 1024, by omega⟩ : Fin 3072))) (m ((c : Thread nD τ).loc main_arg6) (ix2 q k)) := by
  show V m c main_v3 (((cfg0.win 2).blk t).view.emb (ix2 k (⟨q.val + 1024, by omega⟩ : Fin 3072))) = _
  rw [emb2]
  exact (congrFun (V_v3 m c) _).trans (W_at1 _ _ _ k q)
theorem wi_at2 (c : Dev nD) (t : Fin cfg0.N) (k q : Fin 1024) :
    @Eq EReal (iblk m c 2 t (ix2 k (⟨q.val + 2048, by omega⟩ : Fin 3072))) (m ((c : Thread nD τ).loc main_arg10) (ix2 q k)) := by
  show V m c main_v3 (((cfg0.win 2).blk t).view.emb (ix2 k (⟨q.val + 2048, by omega⟩ : Fin 3072))) = _
  rw [emb2]
  exact (congrFun (V_v3 m c) _).trans (W_at2 _ _ _ k q)

/-- A resident weight window holds its whole array at every point. -/
theorem emb3 (t : Fin cfg0.N) (y : S1024x3072.Idx) : ((cfg0.win 3).blk t).view.emb y = y := by
  obtain ⟨-, -, -, -, e20, e21, e30, e31, -⟩ := idx_facts t
  refine funext fun a => Fin.ext ?_
  match a with
  | ⟨0, _⟩ => show win0_3.index t (0 : Fin 2) * 1024 + 1 * (y 0).val = (y 0).val; rw [e30]; omega
  | ⟨1, _⟩ => show win0_3.index t (1 : Fin 2) * 3072 + 1 * (y 1).val = (y 1).val; rw [e31]; omega
theorem wh_at0 (c : Dev nD) (t : Fin cfg0.N) (k q : Fin 1024) :
    @Eq EReal (iblk m c 3 t (ix2 k (⟨q.val + 0, by omega⟩ : Fin 3072))) (m ((c : Thread nD τ).loc main_arg4) (ix2 q k)) := by
  show V m c main_v5 (((cfg0.win 3).blk t).view.emb (ix2 k (⟨q.val + 0, by omega⟩ : Fin 3072))) = _
  rw [emb3]
  exact (congrFun (V_v5 m c) _).trans (W_at0 _ _ _ k q)
theorem wh_at1 (c : Dev nD) (t : Fin cfg0.N) (k q : Fin 1024) :
    @Eq EReal (iblk m c 3 t (ix2 k (⟨q.val + 1024, by omega⟩ : Fin 3072))) (m ((c : Thread nD τ).loc main_arg8) (ix2 q k)) := by
  show V m c main_v5 (((cfg0.win 3).blk t).view.emb (ix2 k (⟨q.val + 1024, by omega⟩ : Fin 3072))) = _
  rw [emb3]
  exact (congrFun (V_v5 m c) _).trans (W_at1 _ _ _ k q)
theorem wh_at2 (c : Dev nD) (t : Fin cfg0.N) (k q : Fin 1024) :
    @Eq EReal (iblk m c 3 t (ix2 k (⟨q.val + 2048, by omega⟩ : Fin 3072))) (m ((c : Thread nD τ).loc main_arg12) (ix2 q k)) := by
  show V m c main_v5 (((cfg0.win 3).blk t).view.emb (ix2 k (⟨q.val + 2048, by omega⟩ : Fin 3072))) = _
  rw [emb3]
  exact (congrFun (V_v5 m c) _).trans (W_at2 _ _ _ k q)

/-- A resident bias window holds its whole row at every point. -/
theorem emb4 (t : Fin cfg0.N) (y : S1x3072.Idx) : ((cfg0.win 4).blk t).view.emb y = y := by
  obtain ⟨-, -, -, -, -, -, -, -, e40, e41, e50, e51, -⟩ := idx_facts t
  refine funext fun a => Fin.ext ?_
  match a with
  | ⟨0, _⟩ => show win0_4.index t (0 : Fin 2) * 1 + 1 * (y 0).val = (y 0).val; rw [e40]; omega
  | ⟨1, _⟩ => show win0_4.index t (1 : Fin 2) * 3072 + 1 * (y 1).val = (y 1).val; rw [e41]; omega
theorem bi_at0 (c : Dev nD) (t : Fin cfg0.N) (q : Fin 1024) :
    @Eq EReal (iblk m c 4 t (ix2 (0 : Fin 1) (⟨q.val + 0, by omega⟩ : Fin 3072))) (m ((c : Thread nD τ).loc main_arg3) (ix1 q)) := by
  show V m c main_v7 (((cfg0.win 4).blk t).view.emb (ix2 (0 : Fin 1) (⟨q.val + 0, by omega⟩ : Fin 3072))) = _
  rw [emb4]
  exact (congrFun (V_v7 m c) _).trans (b_at0 _ _ _ q)
theorem bi_at1 (c : Dev nD) (t : Fin cfg0.N) (q : Fin 1024) :
    @Eq EReal (iblk m c 4 t (ix2 (0 : Fin 1) (⟨q.val + 1024, by omega⟩ : Fin 3072))) (m ((c : Thread nD τ).loc main_arg7) (ix1 q)) := by
  show V m c main_v7 (((cfg0.win 4).blk t).view.emb (ix2 (0 : Fin 1) (⟨q.val + 1024, by omega⟩ : Fin 3072))) = _
  rw [emb4]
  exact (congrFun (V_v7 m c) _).trans (b_at1 _ _ _ q)
theorem bi_at2 (c : Dev nD) (t : Fin cfg0.N) (q : Fin 1024) :
    @Eq EReal (iblk m c 4 t (ix2 (0 : Fin 1) (⟨q.val + 2048, by omega⟩ : Fin 3072))) (m ((c : Thread nD τ).loc main_arg11) (ix1 q)) := by
  show V m c main_v7 (((cfg0.win 4).blk t).view.emb (ix2 (0 : Fin 1) (⟨q.val + 2048, by omega⟩ : Fin 3072))) = _
  rw [emb4]
  exact (congrFun (V_v7 m c) _).trans (b_at2 _ _ _ q)

/-- A resident bias window holds its whole row at every point. -/
theorem emb5 (t : Fin cfg0.N) (y : S1x3072.Idx) : ((cfg0.win 5).blk t).view.emb y = y := by
  obtain ⟨-, -, -, -, -, -, -, -, e40, e41, e50, e51, -⟩ := idx_facts t
  refine funext fun a => Fin.ext ?_
  match a with
  | ⟨0, _⟩ => show win0_5.index t (0 : Fin 2) * 1 + 1 * (y 0).val = (y 0).val; rw [e50]; omega
  | ⟨1, _⟩ => show win0_5.index t (1 : Fin 2) * 3072 + 1 * (y 1).val = (y 1).val; rw [e51]; omega
theorem bh_at0 (c : Dev nD) (t : Fin cfg0.N) (q : Fin 1024) :
    @Eq EReal (iblk m c 5 t (ix2 (0 : Fin 1) (⟨q.val + 0, by omega⟩ : Fin 3072))) (m ((c : Thread nD τ).loc main_arg5) (ix1 q)) := by
  show V m c main_v9 (((cfg0.win 5).blk t).view.emb (ix2 (0 : Fin 1) (⟨q.val + 0, by omega⟩ : Fin 3072))) = _
  rw [emb5]
  exact (congrFun (V_v9 m c) _).trans (b_at0 _ _ _ q)
theorem bh_at1 (c : Dev nD) (t : Fin cfg0.N) (q : Fin 1024) :
    @Eq EReal (iblk m c 5 t (ix2 (0 : Fin 1) (⟨q.val + 1024, by omega⟩ : Fin 3072))) (m ((c : Thread nD τ).loc main_arg9) (ix1 q)) := by
  show V m c main_v9 (((cfg0.win 5).blk t).view.emb (ix2 (0 : Fin 1) (⟨q.val + 1024, by omega⟩ : Fin 3072))) = _
  rw [emb5]
  exact (congrFun (V_v9 m c) _).trans (b_at1 _ _ _ q)
theorem bh_at2 (c : Dev nD) (t : Fin cfg0.N) (q : Fin 1024) :
    @Eq EReal (iblk m c 5 t (ix2 (0 : Fin 1) (⟨q.val + 2048, by omega⟩ : Fin 3072))) (m ((c : Thread nD τ).loc main_arg13) (ix1 q)) := by
  show V m c main_v9 (((cfg0.win 5).blk t).view.emb (ix2 (0 : Fin 1) (⟨q.val + 2048, by omega⟩ : Fin 3072))) = _
  rw [emb5]
  exact (congrFun (V_v9 m c) _).trans (b_at2 _ _ _ q)

/-! ## The six gate entries are the six affine layers -/

theorem gate_i0 (c : Dev nD) (t : Fin cfg0.N) (p : Fin 256) (q : Fin 1024) :
    gate (iblk m c 0 t) (iblk m c 2 t) (iblk m c 4 t) p (⟨q.val + 0, by omega⟩ : Fin 3072)
      = lin (m ((c : Thread nD τ).loc main_arg0)) (m ((c : Thread nD τ).loc main_arg2)) (m ((c : Thread nD τ).loc main_arg3)) (⟨t.val * 256 + p.val, row_lt t p⟩ : Fin 32768) q :=
  congrArg₂ (· + ·) (Finset.sum_congr rfl fun k _ => congrArg₂ (· * ·) (act0_at m c t p k) (wi_at0 m c t k q)) (bi_at0 m c t q)
theorem gate_i1 (c : Dev nD) (t : Fin cfg0.N) (p : Fin 256) (q : Fin 1024) :
    gate (iblk m c 0 t) (iblk m c 2 t) (iblk m c 4 t) p (⟨q.val + 1024, by omega⟩ : Fin 3072)
      = lin (m ((c : Thread nD τ).loc main_arg0)) (m ((c : Thread nD τ).loc main_arg6)) (m ((c : Thread nD τ).loc main_arg7)) (⟨t.val * 256 + p.val, row_lt t p⟩ : Fin 32768) q :=
  congrArg₂ (· + ·) (Finset.sum_congr rfl fun k _ => congrArg₂ (· * ·) (act0_at m c t p k) (wi_at1 m c t k q)) (bi_at1 m c t q)
theorem gate_i2 (c : Dev nD) (t : Fin cfg0.N) (p : Fin 256) (q : Fin 1024) :
    gate (iblk m c 0 t) (iblk m c 2 t) (iblk m c 4 t) p (⟨q.val + 2048, by omega⟩ : Fin 3072)
      = lin (m ((c : Thread nD τ).loc main_arg0)) (m ((c : Thread nD τ).loc main_arg10)) (m ((c : Thread nD τ).loc main_arg11)) (⟨t.val * 256 + p.val, row_lt t p⟩ : Fin 32768) q :=
  congrArg₂ (· + ·) (Finset.sum_congr rfl fun k _ => congrArg₂ (· * ·) (act0_at m c t p k) (wi_at2 m c t k q)) (bi_at2 m c t q)
theorem gate_h0 (c : Dev nD) (t : Fin cfg0.N) (p : Fin 256) (q : Fin 1024) :
    gate (iblk m c 1 t) (iblk m c 3 t) (iblk m c 5 t) p (⟨q.val + 0, by omega⟩ : Fin 3072)
      = lin (m ((c : Thread nD τ).loc main_arg1)) (m ((c : Thread nD τ).loc main_arg4)) (m ((c : Thread nD τ).loc main_arg5)) (⟨t.val * 256 + p.val, row_lt t p⟩ : Fin 32768) q :=
  congrArg₂ (· + ·) (Finset.sum_congr rfl fun k _ => congrArg₂ (· * ·) (act1_at m c t p k) (wh_at0 m c t k q)) (bh_at0 m c t q)
theorem gate_h1 (c : Dev nD) (t : Fin cfg0.N) (p : Fin 256) (q : Fin 1024) :
    gate (iblk m c 1 t) (iblk m c 3 t) (iblk m c 5 t) p (⟨q.val + 1024, by omega⟩ : Fin 3072)
      = lin (m ((c : Thread nD τ).loc main_arg1)) (m ((c : Thread nD τ).loc main_arg8)) (m ((c : Thread nD τ).loc main_arg9)) (⟨t.val * 256 + p.val, row_lt t p⟩ : Fin 32768) q :=
  congrArg₂ (· + ·) (Finset.sum_congr rfl fun k _ => congrArg₂ (· * ·) (act1_at m c t p k) (wh_at1 m c t k q)) (bh_at1 m c t q)
theorem gate_h2 (c : Dev nD) (t : Fin cfg0.N) (p : Fin 256) (q : Fin 1024) :
    gate (iblk m c 1 t) (iblk m c 3 t) (iblk m c 5 t) p (⟨q.val + 2048, by omega⟩ : Fin 3072)
      = lin (m ((c : Thread nD τ).loc main_arg1)) (m ((c : Thread nD τ).loc main_arg12)) (m ((c : Thread nD τ).loc main_arg13)) (⟨t.val * 256 + p.val, row_lt t p⟩ : Fin 32768) q :=
  congrArg₂ (· + ·) (Finset.sum_congr rfl fun k _ => congrArg₂ (· * ·) (act1_at m c t p k) (wh_at2 m c t k q)) (bh_at2 m c t q)

/-! ## From blocks to the array -/

/-- Cell `(p, q)` of the result's block at point `t` is cell `(256·t + p, q)` of the array. -/
theorem emb6 (t : Fin cfg0.N) (p : Fin 256) (q : Fin 1024) :
    ((cfg0.win 6).blk t).view.emb (ix2 p q) = ix2 (⟨t.val * 256 + p.val, row_lt t p⟩ : Fin 32768) q := by
  obtain ⟨-, -, -, -, -, -, -, -, -, -, -, -, e60, e61⟩ := idx_facts t
  refine funext fun a => Fin.ext ?_
  match a with
  | ⟨0, _⟩ => show win0_6.index t (0 : Fin 2) * 256 + 1 * p.val = t.val * 256 + p.val; rw [e60]; omega
  | ⟨1, _⟩ => show win0_6.index t (1 : Fin 2) * 1024 + 1 * q.val = q.val; rw [e61]; omega

/-- What point `t` writes back is block `t` of the specification's function of the arguments. -/
theorem flushed_eq (c : Dev nD) (t : Fin cfg0.N) :
    (dats m 0 c).flushed 6 t = ((cfg0.win 6).blk t).view.read (Elt Ideal) (Gm m c) := by
  show (cfg0.win 6).cut (grid0.coords t) ((dats m 0 c).after 6 t) = _
  rw [after6]
  unfold out6
  rw [View.canon_unit_zero hz]
  simp only [View.ld_unit_zero (S := S256x1024) hz, View.ld_unit_zero (S := S1024x3072) hz, View.ld_unit_zero (S := S1x3072) hz]
  funext j
  obtain ⟨p, q, rfl⟩ : ∃ (p : Fin 256) (q : Fin 1024), j = ix2 p q := ⟨j 0, j 1, eq_ix2 (n0 := 256) (n1 := 1024) j⟩
  show k0_pay1 (F := Ideal) (iblk m c 0 t) (iblk m c 1 t) (iblk m c 2 t) (iblk m c 4 t) (iblk m c 3 t) (iblk m c 5 t) (ix2 p q)
      = Gm m c (((cfg0.win 6).blk t).view.emb (ix2 p q))
  rw [emb6]
  refine (pay_at (iblk m c 0 t) (iblk m c 1 t) (iblk m c 2 t) (iblk m c 4 t) (iblk m c 3 t) (iblk m c 5 t) p q).trans ?_
  rw [gate_i0 m c t p q, gate_h0 m c t p q, gate_i1 m c t p q, gate_h1 m c t p q, gate_i2 m c t p q, gate_h2 m c t p q, act1_at m c t p q]
  rfl

/-- An index of the array is in point `t`'s block iff each coordinate is in the block's range on its axis. -/
theorem mem_blk6 (t : Fin cfg0.N) (i : S32768x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10).slice (win0_6.rect t)).set ↔ _
  rw [View.set_slice_whole, Rect.mem_set_unit]
  exact Iff.rfl

/-- Every index of the array lies in the block of the point its row names. -/
theorem covered (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  have hN : cfg0.N = 128 := N_0
  refine ⟨⟨(i 0).val / 256, by omega⟩, flush0_6 _, ?_⟩
  obtain ⟨-, -, -, -, -, -, -, -, -, -, -, -, e60, e61⟩ := idx_facts ⟨(i 0).val / 256, by omega⟩
  rw [mem_blk6]
  intro a
  match a with
  | ⟨0, _⟩ =>
    show win0_6.index _ (0 : Fin 2) * 256 ≤ (i 0).val ∧ (i 0).val < win0_6.index _ (0 : Fin 2) * 256 + 256
    rw [e60]
    show (i 0).val / 256 * 256 ≤ (i 0).val ∧ (i 0).val < (i 0).val / 256 * 256 + 256
    omega
  | ⟨1, _⟩ =>
    show win0_6.index _ (1 : Fin 2) * 1024 ≤ (i 1).val ∧ (i 1).val < win0_6.index _ (1 : Fin 2) * 1024 + 1024
    rw [e61]
    omega

/-- The result array after the run is the specification's function of the arguments. -/
theorem final (c : Dev nD) : (dats m 0 c).arrAt 6 cfg0.N = Gm m c :=
  (dats m 0 c).arrAt_eq_of_cover 6 (Gm m c) (fun t _ => flushed_eq m c t) covered

/-- Every weakly fair execution terminates with the result array (returned twice) at the specification's function of
    the arguments, the arguments unchanged. -/
theorem run : θ_run defs (onTc (τ := τ) (main (F := Ideal))) ⟨m, fun _ => 0, ρ⟩ (fun r => ∀ c : Dev nD,
      r.2.mem ((c.tc : Thread nD τ).loc main_v10) = Gm m c
      ∧ r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (final m c), (h c).1.trans (final m c), (h c).2⟩) (run_named m ρ)

end Cert.KernelIdeal.GruValue

end
-- ==== Proof.RefIsSpec.lean ====
/-
  The reference program's result, read one operation at a time, is the GRU cell of the specification: each of its
  six `x @ W.T + b` is the affine layer `lin` (the transposed weight matrix read at `(k, q)` is the weight at `(q, k)`,
  the twice-broadcast bias at `(p, q)` is the bias at `q`), its two sigmoids are spelt `1 / (1 + e^(-u))`, and the blend
  is the specification's, operation for operation.
-/
import proofs.«103748_j78039555768457_1_alg».proof.Proof.Gen.ReferenceIdeal.Read
import proofs.«103748_j78039555768457_1_alg».proof.Proof.Spec

noncomputable section

namespace Cert.ReferenceIdeal.GruRef

open Cert.ReferenceIdeal Cert.ReferenceIdeal.Read Cert.GruSpec
open Idealize.ShloMosaic Idealize.ShloMosaic.ValueIdx

abbrev CBD := (⟨S32768x1024, .f32⟩ : BufTy).Contents (Elt Ideal)
abbrev CDD := (⟨S1024x1024, .f32⟩ : BufTy).Contents (Elt Ideal)
abbrev CD := (⟨S1024, .f32⟩ : BufTy).Contents (Elt Ideal)

/-- The reference's layer `ir` at a cell is the affine layer of the specification. -/
theorem lin_ir (x0 : CBD) (x2 : CDD) (x3 : CD) (i : S32768x1024.Idx) :
    val_main_v4 (F := Ideal) x0 x2 x3 i = lin x0 x2 x3 (i 0) (i 1) := by
  have el : ∀ k : Fin 1024, lidx_main_v1 i k = ix2 (i 0) k := fun k => funext fun a => by
    match a with
    | ⟨0, _⟩ => rfl
    | ⟨1, _⟩ => rfl
  have er : ∀ k : Fin 1024, idx_main_v0 (ridx_main_v1 i k) = ix2 (i 1) k := fun k => funext fun a => by
    match a with
    | ⟨0, _⟩ => rfl
    | ⟨1, _⟩ => rfl
  have eb : idx_main_v2 (idx_main_v3 i) = ix1 (i 1) := funext fun a => by
    match a with
    | ⟨0, _⟩ => rfl
  rw [val_main_v4_apply, val_main_v1_apply, val_main_v3_apply, val_main_v2_apply]
  simp only [val_main_v0_apply, el, er, eb]
  rfl

/-- The reference's layer `hr` at a cell is the affine layer of the specification. -/
theorem lin_hr (x1 : CBD) (x4 : CDD) (x5 : CD) (i : S32768x1024.Idx) :
    val_main_v9 (F := Ideal) x1 x4 x5 i = lin x1 x4 x5 (i 0) (i 1) := by
  have el : ∀ k : Fin 1024, lidx_main_v6 i k = ix2 (i 0) k := fun k => funext fun a => by
    match a with
    | ⟨0, _⟩ => rfl
    | ⟨1, _⟩ => rfl
  have er : ∀ k : Fin 1024, idx_main_v5 (ridx_main_v6 i k) = ix2 (i 1) k := fun k => funext fun a => by
    match a with
    | ⟨0, _⟩ => rfl
    | ⟨1, _⟩ => rfl
  have eb : idx_main_v7 (idx_main_v8 i) = ix1 (i 1) := funext fun a => by
    match a with
    | ⟨0, _⟩ => rfl
  rw [val_main_v9_apply, val_main_v6_apply, val_main_v8_apply, val_main_v7_apply]
  simp only [val_main_v5_apply, el, er, eb]
  rfl

/-- The reference's layer `iz` at a cell is the affine layer of the specification. -/
theorem lin_iz (x0 : CBD) (x6 : CDD) (x7 : CD) (i : S32768x1024.Idx) :
    val_main_v21 (F := Ideal) x0 x6 x7 i = lin x0 x6 x7 (i 0) (i 1) := by
  have el : ∀ k : Fin 1024, lidx_main_v18 i k = ix2 (i 0) k := fun k => funext fun a => by
    match a with
    | ⟨0, _⟩ => rfl
    | ⟨1, _⟩ => rfl
  have er : ∀ k : Fin 1024, idx_main_v17 (ridx_main_v18 i k) = ix2 (i 1) k := fun k => funext fun a => by
    match a with
    | ⟨0, _⟩ => rfl
    | ⟨1, _⟩ => rfl
  have eb : idx_main_v19 (idx_main_v20 i) = ix1 (i 1) := funext fun a => by
    match a with
    | ⟨0, _⟩ => rfl
  rw [val_main_v21_apply, val_main_v18_apply, val_main_v20_apply, val_main_v19_apply]
  simp only [val_main_v17_apply, el, er, eb]
  rfl

/-- The reference's layer `hz` at a cell is the affine layer of the specification. -/
theorem lin_hz (x1 : CBD) (x8 : CDD) (x9 : CD) (i : S32768x1024.Idx) :
    val_main_v26 (F := Ideal) x1 x8 x9 i = lin x1 x8 x9 (i 0) (i 1) := by
  have el : ∀ k : Fin 1024, lidx_main_v23 i k = ix2 (i 0) k := fun k => funext fun a => by
    match a with
    | ⟨0, _⟩ => rfl
    | ⟨1, _⟩ => rfl
  have er : ∀ k : Fin 1024, idx_main_v22 (ridx_main_v23 i k) = ix2 (i 1) k := fun k => funext fun a => by
    match a with
    | ⟨0, _⟩ => rfl
    | ⟨1, _⟩ => rfl
  have eb : idx_main_v24 (idx_main_v25 i) = ix1 (i 1) := funext fun a => by
    match a with
    | ⟨0, _⟩ => rfl
  rw [val_main_v26_apply, val_main_v23_apply, val_main_v25_apply, val_main_v24_apply]
  simp only [val_main_v22_apply, el, er, eb]
  rfl

/-- The reference's layer `in` at a cell is the affine layer of the specification. -/
theorem lin_in (x0 : CBD) (x10 : CDD) (x11 : CD) (i : S32768x1024.Idx) :
    val_main_v38 (F := Ideal) x0 x10 x11 i = lin x0 x10 x11 (i 0) (i 1) := by
  have el : ∀ k : Fin 1024, lidx_main_v35 i k = ix2 (i 0) k := fun k => funext fun a => by
    match a with
    | ⟨0, _⟩ => rfl
    | ⟨1, _⟩ => rfl
  have er : ∀ k : Fin 1024, idx_main_v34 (ridx_main_v35 i k) = ix2 (i 1) k := fun k => funext fun a => by
    match a with
    | ⟨0, _⟩ => rfl
    | ⟨1, _⟩ => rfl
  have eb : idx_main_v36 (idx_main_v37 i) = ix1 (i 1) := funext fun a => by
    match a with
    | ⟨0, _⟩ => rfl
  rw [val_main_v38_apply, val_main_v35_apply, val_main_v37_apply, val_main_v36_apply]
  simp only [val_main_v34_apply, el, er, eb]
  rfl

/-- The reference's layer `hn` at a cell is the affine layer of the specification. -/
theorem lin_hn (x1 : CBD) (x12 : CDD) (x13 : CD) (i : S32768x1024.Idx) :
    val_main_v43 (F := Ideal) x1 x12 x13 i = lin x1 x12 x13 (i 0) (i 1) := by
  have el : ∀ k : Fin 1024, lidx_main_v40 i k = ix2 (i 0) k := fun k => funext fun a => by
    match a with
    | ⟨0, _⟩ => rfl
    | ⟨1, _⟩ => rfl
  have er : ∀ k : Fin 1024, idx_main_v39 (ridx_main_v40 i k) = ix2 (i 1) k := fun k => funext fun a => by
    match a with
    | ⟨0, _⟩ => rfl
    | ⟨1, _⟩ => rfl
  have eb : idx_main_v41 (idx_main_v42 i) = ix1 (i 1) := funext fun a => by
    match a with
    | ⟨0, _⟩ => rfl
  rw [val_main_v43_apply, val_main_v40_apply, val_main_v42_apply, val_main_v41_apply]
  simp only [val_main_v39_apply, el, er, eb]
  rfl

/-- The reference's result array is the specification's function of the arguments. -/
theorem result_is_G (x0 x1 : CBD) (x2 : CDD) (x3 : CD) (x4 : CDD) (x5 : CD) (x6 : CDD) (x7 : CD) (x8 : CDD) (x9 : CD)
    (x10 : CDD) (x11 : CD) (x12 : CDD) (x13 : CD) :
    val_main_v51 (F := Ideal) x0 x1 x2 x3 x4 x5 x6 x7 x8 x9 x10 x11 x12 x13
      = G x0 x1 x2 x3 x4 x5 x6 x7 x8 x9 x10 x11 x12 x13 := by
  funext i
  rw [val_main_v51_apply, val_main_v49_apply, val_main_v50_apply, val_main_v48_apply, val_main_v46_apply, val_main_v45_apply,
    val_main_v44_apply, val_main_v47_apply, val_main_cst_3_apply]
  rw [val_main_v33_apply, val_main_v32_apply, val_main_cst_2_apply, val_main_v31_apply, val_main_v30_apply, val_main_cst_1_apply,
    val_main_v29_apply, val_main_v28_apply, val_main_v27_apply]
  rw [val_main_v16_apply, val_main_v15_apply, val_main_cst_0_apply, val_main_v14_apply, val_main_v13_apply, val_main_cst_apply,
    val_main_v12_apply, val_main_v11_apply, val_main_v10_apply]
  rw [lin_ir, lin_hr, lin_iz, lin_hz, lin_in, lin_hn]
  rfl

end Cert.ReferenceIdeal.GruRef

end
-- ==== Proof.lean ====
/-
  The fused GRU-cell kernel against the six-layer jnp reference, over the extended reals.

  Both programs compute, at batch row `p` and feature `q`,
  `(1 - z)·tanh(inₙ + r·hₙ) + z·h` with `r = σ(iᵣ + hᵣ)`, `z = σ(i_z + h_z)`, `σ(u) = 1 / (1 + e^(-u))`, where each of the six
  terms is an affine layer `Σₖ X[p,k]·W[q,k] + b[q]`. The kernel stacks the three weight matrices of a side, transposes
  and narrows them on the host (the narrowing is the identity on the extended reals), multiplies a block of 256 rows
  by the stacked `1024 × 3072` matrix and slices the three column ranges; the reference multiplies by each transposed
  matrix in turn. The sums are over the same index in the same order, so no law of arithmetic is needed beyond
  reading both sides index by index, and the precondition is never opened.

  The kernel's frame (both readings) runs the body once per grid point over whole staging buffers; the kernel's value
  is read off that run block by block; the reference's run and its stages are the generated ones.
-/
import proofs.«103748_j78039555768457_1_alg».proof.Defs
import proofs.«103748_j78039555768457_1_alg».proof.Proof.Gen.Kernel
import proofs.«103748_j78039555768457_1_alg».proof.Proof.Gen.KernelIdeal
import proofs.«103748_j78039555768457_1_alg».proof.Proof.Gen.ReferenceIdeal
import proofs.«103748_j78039555768457_1_alg».proof.Proof.Gen.Pre_finite_inputs
import proofs.«103748_j78039555768457_1_alg».proof.Proof.Gen.ReferenceIdeal.Run
import proofs.«103748_j78039555768457_1_alg».proof.Proof.Gen.ReferenceIdeal.Read
import proofs.«103748_j78039555768457_1_alg».proof.Proof.KernelFrame
import proofs.«103748_j78039555768457_1_alg».proof.Proof.KernelIdealFrame
import proofs.«103748_j78039555768457_1_alg».proof.Proof.KernelIdealValue
import proofs.«103748_j78039555768457_1_alg».proof.Proof.RefIsSpec
import Idealize.ShloMosaic.Adequacy
import Idealize.ShloMosaic.Init

noncomputable section

namespace Cert.Proof

open Idealize.ShloMosaic Idealize.SL.Sem

/-- The word-level kernel terminates, faults nowhere and leaves its arguments unchanged. -/
theorem frame_k : Cert.frame_Kernel := fun m ρ _ => Cert.Kernel.Gru.frame m ρ

/-- So does the idealized kernel. -/
theorem frame_ki : Cert.frame_KernelIdeal := fun m ρ _ => Cert.KernelIdeal.Gru.frame m ρ

/-- The reference's frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Run from memories agreeing on the arguments, both idealized programs end with their result at the GRU cell of the
    specification applied to those arguments. -/
theorem algebraic : Cert.algebraic_KernelIdeal_ReferenceIdeal := by
  intro m ρ m' ρ' _ hagree
  refine ⟨fun c => Cert.KernelIdeal.GruValue.Gm m c, fun c => Cert.KernelIdeal.GruValue.Gm m c, Cert.KernelIdeal.GruValue.run m ρ, ?_⟩
  have key : ∀ c : Dev Cert.ReferenceIdeal.nD,
      Cert.ReferenceIdeal.Read.val_main_v51 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
      = Cert.KernelIdeal.GruValue.Gm m c := fun c => by
    rw [Cert.ReferenceIdeal.GruRef.result_is_G, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    rfl
  exact (θ_run Cert.ReferenceIdeal.defs _ _).mono
    (fun _ h c => ⟨(h c).1.trans ((Cert.ReferenceIdeal.Read.val_main_v51_eq _ _ _ _ _ _ _ _ _ _ _ _ _ _).trans (key c)),
      (h c).2.1.trans ((Cert.ReferenceIdeal.Read.val_main_v51_eq _ _ _ _ _ _ _ _ _ _ _ _ _ _).trans (key c)), (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
